-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S704512x64 : Shape := ⟨2, ![704512, 64]⟩
abbrev S704512x1 : Shape := ⟨2, ![704512, 1]⟩
abbrev S11008 : Shape := ⟨1, ![11008]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S704512x1 : S_.BroadcastsInDim S704512x1 (![] : Fin 0 → Fin S704512x1.rank)
  reducesTo_S704512x1_S_d0_1 : S704512x1.ReducesTo [0, 1] S_
  bcast_S_S11008 : S_.BroadcastsInDim S11008 (![] : Fin 0 → Fin S11008.rank)
  reducesTo_S11008_S_d0 : S11008.ReducesTo [0] S_

variable [Facts]

def fn {F : FTy → Type} [FloatOps F] (main_arg0 : FVec F S4x2048x4096 .f32) (main_arg1 : IVec S704512x64 32) (main_arg2 : FVec F S704512x1 .f32) (main_arg3 : FVec F S11008 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S704512x1 .f32 := Host.absf main_arg2
  let main_cst_0 : FVec F S_ .f32 := constant S_ .f32 0x7F800000#32
  let main_v5 : FVec F S704512x1 .f32 := broadcastInDim S704512x1 ![] bcast_S_S704512x1 main_cst_0
  let main_v6 : IVec S704512x1 1 := cmpf .olt main_v4 main_v5
  let main_c_1 : IVec S_ 1 := constantI S_ 1 1#1
  let main_v7 : IVec S_ 1 := (fun x v => Host.reduce IntOp.andi x v reducesTo_S704512x1_S_d0_1 h_S_) main_v6 main_c_1
  let main_v8 : IVec S_ 1 := andi main_v3 main_v7
  let main_v9 : FVec F S11008 .f32 := Host.absf main_arg3
  let main_cst_2 : FVec F S_ .f32 := constant S_ .f32 0x7F800000#32
  let main_v10 : FVec F S11008 .f32 := broadcastInDim S11008 ![] bcast_S_S11008 main_cst_2
  let main_v11 : IVec S11008 1 := cmpf .olt main_v9 main_v10
  let main_c_3 : IVec S_ 1 := constantI S_ 1 1#1
  let main_v12 : IVec S_ 1 := (fun x v => Host.reduce IntOp.andi x v reducesTo_S11008_S_d0 h_S_) main_v11 main_c_3
  let main_v13 : IVec S_ 1 := andi main_v8 main_v12
  main_v13
-- ==== Kernel.lean ====
abbrev S4x2048x4096 : Shape := ⟨3, ![4, 2048, 4096]⟩
abbrev S704512x64 : Shape := ⟨2, ![704512, 64]⟩
abbrev S704512x1 : Shape := ⟨2, ![704512, 1]⟩
abbrev S11008 : Shape := ⟨1, ![11008]⟩
abbrev S_ : Shape := ⟨0, ![]⟩
abbrev S11008x4096 : Shape := ⟨2, ![11008, 4096]⟩
abbrev S8192x4096 : Shape := ⟨2, ![8192, 4096]⟩
abbrev S1x11008 : Shape := ⟨2, ![1, 11008]⟩
abbrev S8192x11008 : Shape := ⟨2, ![8192, 11008]⟩
abbrev S1024x4096 : Shape := ⟨2, ![1024, 4096]⟩
abbrev S256x4096 : Shape := ⟨2, ![256, 4096]⟩
abbrev S1x256 : Shape := ⟨2, ![1, 256]⟩
abbrev S1024x256 : Shape := ⟨2, ![1024, 256]⟩
abbrev S4096x256 : Shape := ⟨2, ![4096, 256]⟩
abbrev S4x2048x11008 : Shape := ⟨3, ![4, 2048, 11008]⟩

abbrev nBuf : Space → Nat
  | .hbm => 17
  | .vmem => 8
  | .smem => 0
  | _ => 0

abbrev bufTy : (tb : Table) → Fin (tcTables nBuf tb) → BufTy
  | .hbm, ⟨0, _⟩ => ⟨S4x2048x4096, .f32⟩
  | .hbm, ⟨1, _⟩ => ⟨S704512x64, .i32⟩
  | .hbm, ⟨2, _⟩ => ⟨S704512x1, .f32⟩
  | .hbm, ⟨3, _⟩ => ⟨S11008, .f32⟩
  | .hbm, ⟨4, _⟩ => ⟨S704512x64, .f32⟩
  | .hbm, ⟨5, _⟩ => ⟨S_, .f32⟩
  | .hbm, ⟨6, _⟩ => ⟨S704512x64, .f32⟩
  | .hbm, ⟨7, _⟩ => ⟨S704512x64, .f32⟩
  | .hbm, ⟨8, _⟩ => ⟨S704512x64, .f32⟩
  | .hbm, ⟨9, _⟩ => ⟨S704512x64, .f32⟩
  | .hbm, ⟨10, _⟩ => ⟨S11008x4096, .f32⟩
  | .hbm, ⟨11, _⟩ => ⟨S11008x4096, .bf16⟩
  | .hbm, ⟨12, _⟩ => ⟨S8192x4096, .f32⟩
  | .hbm, ⟨13, _⟩ => ⟨S8192x4096, .bf16⟩
  | .hbm, ⟨14, _⟩ => ⟨S1x11008, .f32⟩
  | .hbm, ⟨15, _⟩ => ⟨S8192x11008, .f32⟩
  | .hbm, ⟨16, _⟩ => ⟨S4x2048x11008, .f32⟩
  | .local _ .vmem, ⟨0, _⟩ => ⟨S1024x4096, .bf16⟩
  | .local _ .vmem, ⟨1, _⟩ => ⟨S1024x4096, .bf16⟩
  | .local _ .vmem, ⟨2, _⟩ => ⟨S256x4096, .bf16⟩
  | .local _ .vmem, ⟨3, _⟩ => ⟨S256x4096, .bf16⟩
  | .local _ .vmem, ⟨4, _⟩ => ⟨S1x256, .f32⟩
  | .local _ .vmem, ⟨5, _⟩ => ⟨S1x256, .f32⟩
  | .local _ .vmem, ⟨6, _⟩ => ⟨S1024x256, .f32⟩
  | .local _ .vmem, ⟨7, _⟩ => ⟨S1024x256, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 43], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bcast_S_S704512x64 : S_.BroadcastsInDim S704512x64 (![] : Fin 0 → Fin S704512x64.rank)
  bcast_S704512x1_S704512x64_0_1 : S704512x1.BroadcastsInDim S704512x64 (![0, 1] : Fin 2 → Fin S704512x64.rank)
  shapeCasts_S704512x64_S11008x4096 : S704512x64.ShapeCasts S11008x4096
  bitsLt_bf16_f32 : FTy.bits .bf16 < FTy.bits .f32
  shapeCasts_S4x2048x4096_S8192x4096 : S4x2048x4096.ShapeCasts S8192x4096
  shapeCasts_S11008_S1x11008 : S11008.ShapeCasts S1x11008
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  transposes_S256x4096_p1_0_S4096x256 : S256x4096.Transposes [1, 0] S4096x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S1024x256_S1024x256_0_0 : ∀ a, (![0, 0] : Fin 2 → Nat) a + S1024x256.size a ≤ S1024x256.size a
  h_S1024x256 : 0 < S1024x256.numel
  shapeCasts_S8192x11008_S4x2048x11008 : S8192x11008.ShapeCasts S4x2048x11008
  dot_S1024x4096_S4096x256_S1024x256_1_0_0_1_n_n_wf : DotDims.WF S1024x4096 S4096x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S8192x4096.size a
  hwx0_0 : ∀ i : grid0.Coords, EltTy.bits .bf16 = 32 ∨ (Rect.block (s := S8192x4096) S1024x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S11008x4096.size a
  hwx0_1 : ∀ i : grid0.Coords, EltTy.bits .bf16 = 32 ∨ (Rect.block (s := S11008x4096) S256x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x11008.size a
  hwx0_2 : ∀ i : grid0.Coords, EltTy.bits .f32 = 32 ∨ (Rect.block (s := S1x11008) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S8192x11008.size a
  hwx0_3 : ∀ i : grid0.Coords, EltTy.bits .f32 = 32 ∨ (Rect.block (s := S8192x11008) S1024x256.size (cc0_transform_3 i) (hinb0_3 i)).WholeWords (EltTy.packing .f32)

variable [Facts₀]

def dot_S1024x4096_S4096x256_S1024x256_1_0_0_1_n_n : DotDims S1024x4096 S4096x256 S1024x256 where
  lhsContracting := [1]
  rhsContracting := [0]
  lhsNonContracting := [0]
  rhsNonContracting := [1]
  lhsBatch := []
  rhsBatch := []
  wf := dot_S1024x4096_S4096x256_S1024x256_1_0_0_1_n_n_wf

abbrev win0_0 : Pipeline.Window sig grid0 :=
  Pipeline.Window.ofSpec (Memref.whole main_v8) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v10) S1024x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S704512x64 : Shape := ⟨2, ![704512, 64]⟩
abbrev S704512x1 : Shape := ⟨2, ![704512, 1]⟩
abbrev S11008 : Shape := ⟨1, ![11008]⟩
abbrev S_ : Shape := ⟨0, ![]⟩
abbrev S11008x4096 : Shape := ⟨2, ![11008, 4096]⟩
abbrev S4x2048x11008 : Shape := ⟨3, ![4, 2048, 11008]⟩
abbrev S1x1x11008 : Shape := ⟨3, ![1, 1, 11008]⟩

abbrev nBuf : Space → Nat
  | .hbm => 15
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S704512x64, .i32⟩
  | .hbm, ⟨2, _⟩ => ⟨S704512x1, .f32⟩
  | .hbm, ⟨3, _⟩ => ⟨S11008, .f32⟩
  | .hbm, ⟨4, _⟩ => ⟨S704512x64, .f32⟩
  | .hbm, ⟨5, _⟩ => ⟨S_, .f32⟩
  | .hbm, ⟨6, _⟩ => ⟨S704512x64, .f32⟩
  | .hbm, ⟨7, _⟩ => ⟨S704512x64, .f32⟩
  | .hbm, ⟨8, _⟩ => ⟨S704512x64, .f32⟩
  | .hbm, ⟨9, _⟩ => ⟨S704512x64, .f32⟩
  | .hbm, ⟨10, _⟩ => ⟨S11008x4096, .f32⟩
  | .hbm, ⟨11, _⟩ => ⟨S4x2048x11008, .f32⟩
  | .hbm, ⟨12, _⟩ => ⟨S1x1x11008, .f32⟩
  | .hbm, ⟨13, _⟩ => ⟨S4x2048x11008, .f32⟩
  | .hbm, ⟨14, _⟩ => ⟨S4x2048x11008, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]

class Facts₀ : Prop where
  bcast_S_S704512x64 : S_.BroadcastsInDim S704512x64 (![] : Fin 0 → Fin S704512x64.rank)
  bcast_S704512x1_S704512x64_0_1 : S704512x1.BroadcastsInDim S704512x64 (![0, 1] : Fin 2 → Fin S704512x64.rank)
  shapeCasts_S704512x64_S11008x4096 : S704512x64.ShapeCasts S11008x4096
  bcast_S11008_S1x1x11008_2 : S11008.BroadcastsInDim S1x1x11008 (![2] : Fin 1 → Fin S1x1x11008.rank)
  bcast_S1x1x11008_S4x2048x11008_0_1_2 : S1x1x11008.BroadcastsInDim S4x2048x11008 (![0, 1, 2] : Fin 3 → Fin S4x2048x11008.rank)
  dot_S4x2048x4096_S11008x4096_S4x2048x11008_2_1_01_0_n_n_wf : DotDims.WF S4x2048x4096 S11008x4096 S4x2048x11008 [2] [1] [0, 1] [0] [] []

variable [Facts₀]

def dot_S4x2048x4096_S11008x4096_S4x2048x11008_2_1_01_0_n_n : DotDims S4x2048x4096 S11008x4096 S4x2048x11008 where
  lhsContracting := [2]
  rhsContracting := [1]
  lhsNonContracting := [0, 1]
  rhsNonContracting := [0]
  lhsBatch := []
  rhsBatch := []
  wf := dot_S4x2048x4096_S11008x4096_S4x2048x11008_2_1_01_0_n_n_wf

class Facts : Prop extends Facts₀ where

variable [Facts]
-- ==== Proof.KernelGrid.lean ====
/-
  The grid's geometry. The grid is 8 × 43, walked row-major: point t is step (t / 43, t % 43). Step (i, j) reads block
  row i of the activations, block row j of the weight matrix and block column j of the bias row, and writes block
  (i, j) of the product; since 8 · 1024 = 8192 and 43 · 256 = 11008 these [1024, 256] blocks tile the [8192, 11008]
  array: entry (r, o) lies in block (r / 1024, o / 256), the block of point (r / 1024) · 43 + o / 256.
-/
import proofs.«134104_j76175539962496_1_alg».proof.Proof.Gen.KernelIdeal.Frame

set_option maxRecDepth 16384

noncomputable section

namespace Cert.KernelIdeal.Grid

open Cert.KernelIdeal Cert.KernelIdeal.Gen Idealize.ShloMosaic Idealize.ShloMosaic.TcCoe Idealize.SL.Sem

theorem origin : (![0, 0] : Fin 2 → Nat) = fun _ => 0 := funext fun a => by fin_cases a <;> rfl

/-- The printed index maps in closed form, decided over the 344 grid points: the output's block is (t / 43, t % 43); the
    activations' block row is the output's, the weight rows' block and the bias piece's block are the output's block
    column; every other block index is 0. -/
theorem index_facts : ∀ t : Fin cfg0.N,
    win0_3.index t (0 : Fin 2) = t.val / 43 ∧ win0_3.index t (1 : Fin 2) = t.val % 43
    ∧ win0_0.index t (0 : Fin 2) = t.val / 43 ∧ win0_0.index t (1 : Fin 2) = 0
    ∧ win0_1.index t (0 : Fin 2) = t.val % 43 ∧ win0_1.index t (1 : Fin 2) = 0
    ∧ win0_2.index t (0 : Fin 2) = 0 ∧ win0_2.index t (1 : Fin 2) = t.val % 43 :=
  (by decide +kernel : ∀ t : Fin grid0.N, _)

/-- An index of the product array is in point `t`'s block iff each coordinate is in the block's range on its axis. -/
theorem mem_block (t : Fin cfg0.N) (i : S8192x11008.Idx) :
    i ∈ ((cfg0.win 3).blk t).view.set ↔ ∀ a : Fin 2, win0_3.index t a * S1024x256.size a ≤ (i a).val ∧ (i a).val < win0_3.index t a * S1024x256.size a + S1024x256.size a := by
  show i ∈ ((View.whole main_v10).slice (win0_3.rect t)).set ↔ _
  rw [View.set_slice_whole, Rect.mem_set_unit]
  exact Iff.rfl

/-- The blocks tile the array: entry (r, o) is in the block of point (r / 1024) · 43 + o / 256. -/
theorem covered (i : S8192x11008.Idx) :
    ∃ t : Fin cfg0.N, (cfg0.win 3).flush t = true ∧ i ∈ ((cfg0.win 3).blk t).view.set := by
  have hi0 : (i 0).val < 8192 := (i 0).isLt
  have hi1 : (i 1).val < 11008 := (i 1).isLt
  have hN : cfg0.N = 344 := rfl
  let t : Fin cfg0.N := ⟨(i 0).val / 1024 * 43 + (i 1).val / 256, by rw [hN]; omega⟩
  have tv : t.val = (i 0).val / 1024 * 43 + (i 1).val / 256 := rfl
  obtain ⟨q0, q1, -⟩ := index_facts t
  refine ⟨t, flush0_3 t, ?_⟩
  rw [mem_block]
  intro a
  match a with
  | ⟨0, _⟩ => show win0_3.index t (0 : Fin 2) * 1024 ≤ (i 0).val ∧ (i 0).val < win0_3.index t (0 : Fin 2) * 1024 + 1024; rw [q0, tv]; omega
  | ⟨1, _⟩ => show win0_3.index t (1 : Fin 2) * 256 ≤ (i 1).val ∧ (i 1).val < win0_3.index t (1 : Fin 2) * 256 + 256; rw [q1, tv]; omega

end Cert.KernelIdeal.Grid

end
-- ==== Proof.KernelBody.lean ====
/-
  What one grid step stores, entry by entry. The step loads a [1024, 4096] block of activations `a`, a [256, 4096] block of
  weight rows `w` and a [1, 256] piece of the bias row `b`, and stores  a · wᵀ + b  (the bias row repeated down the 1024
  rows). Over the extended reals the matrix unit's product onto a zero accumulator is the plain sum over the contracted
  axis, so entry (p, q) of the stored block is

      Σ_k a[p, k] · w[q, k] + b[0, q]        (k < 4096):

  the transposed operand read at (k, q) is `w` at (q, k), the two identity shape casts change nothing, and the broadcast
  reads the bias piece at column q.
-/
import proofs.«134104_j76175539962496_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx

/-! ## The product's operand indices, axis by axis -/

/-- The left operand's row is the result's row. -/
theorem lhs_0 (i : S1024x256.Idx) (q : dot_S1024x4096_S4096x256_S1024x256_1_0_0_1_n_n.contr.Idx) :
    (dot_S1024x4096_S4096x256_S1024x256_1_0_0_1_n_n.lhsIdx i q 0).val = (i 0).val := by
  unfold DotDims.lhsIdx
  rw [dif_neg (show ¬(0 : Fin S1024x4096.rank) ∈ dot_S1024x4096_S4096x256_S1024x256_1_0_0_1_n_n.lhsBatch by decide), dif_pos (show (0 : Fin S1024x4096.rank) ∈ dot_S1024x4096_S4096x256_S1024x256_1_0_0_1_n_n.lhsNonContracting by decide)]
  rfl
/-- The left operand's column is the contraction position. -/
theorem lhs_1 (i : S1024x256.Idx) (q : dot_S1024x4096_S4096x256_S1024x256_1_0_0_1_n_n.contr.Idx) :
    (dot_S1024x4096_S4096x256_S1024x256_1_0_0_1_n_n.lhsIdx i q 1).val = (q ⟨0, by decide⟩).val :=
  dot_S1024x4096_S4096x256_S1024x256_1_0_0_1_n_n.lhsIdx_val_of_single rfl i q
/-- The right operand's row is the contraction position. -/
theorem rhs_0 (i : S1024x256.Idx) (q : dot_S1024x4096_S4096x256_S1024x256_1_0_0_1_n_n.contr.Idx) :
    (dot_S1024x4096_S4096x256_S1024x256_1_0_0_1_n_n.rhsIdx i q 0).val = (q ⟨0, by decide⟩).val :=
  dot_S1024x4096_S4096x256_S1024x256_1_0_0_1_n_n.rhsIdx_val_of_single rfl i q
/-- The right operand's column is the result's column. -/
theorem rhs_1 (i : S1024x256.Idx) (q : dot_S1024x4096_S4096x256_S1024x256_1_0_0_1_n_n.contr.Idx) :
    (dot_S1024x4096_S4096x256_S1024x256_1_0_0_1_n_n.rhsIdx i q 1).val = (i 1).val := by
  unfold DotDims.rhsIdx
  rw [dif_neg (show ¬(1 : Fin S4096x256.rank) ∈ dot_S1024x4096_S4096x256_S1024x256_1_0_0_1_n_n.rhsBatch by decide), dif_pos (show (1 : Fin S4096x256.rank) ∈ dot_S1024x4096_S4096x256_S1024x256_1_0_0_1_n_n.rhsNonContracting by decide)]
  rfl

/-- The product onto a zero accumulator at (p, q): the sum over k of the left operand at (p, k) times the right at (k, q). -/
theorem product_apply (a : FVec Ideal S1024x4096 .bf16) (bT : FVec Ideal S4096x256 .bf16) (p : Fin 1024) (q : Fin 256) :
    matmul (F := Ideal) dot_S1024x4096_S4096x256_S1024x256_1_0_0_1_n_n none a bT (constant (F := Ideal) S1024x256 .f32 0x00000000#32) (ix2 p q)
      = ∑ k : Fin 4096, a (ix2 p k) * bT (ix2 k q) := by
  refine (Ideal.matmul_constant_zero_apply dot_S1024x4096_S4096x256_S1024x256_1_0_0_1_n_n none a bT (ix2 p q)).trans ?_
  rw [← Equiv.sum_comp (contrEquiv1 dot_S1024x4096_S4096x256_S1024x256_1_0_0_1_n_n 4096 rfl rfl).symm]
  refine Finset.sum_congr rfl fun k _ => ?_
  have hk := contrEquiv1_symm_val dot_S1024x4096_S4096x256_S1024x256_1_0_0_1_n_n 4096 rfl rfl k
  have el : dot_S1024x4096_S4096x256_S1024x256_1_0_0_1_n_n.lhsIdx (ix2 p q) ((contrEquiv1 dot_S1024x4096_S4096x256_S1024x256_1_0_0_1_n_n 4096 rfl rfl).symm k) = ix2 p k := funext fun a => Fin.ext (by
    match a with
    | ⟨0, _⟩ => exact lhs_0 _ _
    | ⟨1, _⟩ => exact (lhs_1 _ _).trans hk)
  have er : dot_S1024x4096_S4096x256_S1024x256_1_0_0_1_n_n.rhsIdx (ix2 p q) ((contrEquiv1 dot_S1024x4096_S4096x256_S1024x256_1_0_0_1_n_n 4096 rfl rfl).symm k) = ix2 k q := funext fun a => Fin.ext (by
    match a with
    | ⟨0, _⟩ => exact (rhs_0 _ _).trans hk
    | ⟨1, _⟩ => exact rhs_1 _ _)
  rw [el, er]

/-- The transposed weight block at (k, q) is the block at (q, k). -/
theorem transposed_apply (w : FVec Ideal S256x4096 .bf16) (k : Fin 4096) (q : Fin 256) :
    transpose S4096x256 [1, 0] w transposes_S256x4096_p1_0_S4096x256 (ix2 k q) = w (ix2 q k) :=
  transpose_apply _ w _ (ix2 k q) (ix2 q k) (fun b => match b with | ⟨0, _⟩ => rfl | ⟨1, _⟩ => rfl)

/-- The bias piece repeated down the rows, at (p, q), is the piece at (0, q). -/
theorem bias_rows_apply (b : FVec Ideal S1x256 .f32) (p : Fin 1024) (q : Fin 256) :
    broadcastTo S1024x256 b broadcasts_S1x256_S1024x256 (ix2 p q) = b (ix2 ⟨0, Nat.one_pos⟩ q) :=
  broadcastTo_apply b _ (ix2 p q) (ix2 ⟨0, Nat.one_pos⟩ q) (fun a => match a with
    | ⟨0, _⟩ => by show 0 = if (1 : Nat) = 1 then 0 else p.val; rw [if_pos rfl]
    | ⟨1, _⟩ => by show q.val = if (256 : Nat) = 1 then 0 else q.val; rw [if_neg (by decide)])

/-! ## The stored block -/

/-- Entry (p, q) of what the step stores: row p of the activations against row q of the weights, plus the bias at q. -/
theorem stored_apply (a : Vec Ideal S1024x4096 .bf16) (w : Vec Ideal S256x4096 .bf16) (b : Vec Ideal S1x256 .f32)
    (p : Fin 1024) (q : Fin 256) :
    k0_pay1 (F := Ideal) a w b (ix2 p q) = (∑ k : Fin 4096, a (ix2 p k) * w (ix2 q k)) + b (ix2 ⟨0, Nat.one_pos⟩ q) := by
  unfold k0_pay1
  show matmul (F := Ideal) dot_S1024x4096_S4096x256_S1024x256_1_0_0_1_n_n none (shapeCast S1024x4096 a shapeCasts_S1024x4096_S1024x4096)
        (transpose S4096x256 [1, 0] (shapeCast S256x4096 w shapeCasts_S256x4096_S256x4096) transposes_S256x4096_p1_0_S4096x256)
        (constant (F := Ideal) S1024x256 .f32 0x00000000#32) (ix2 p q)
      + broadcastTo S1024x256 (shapeCast S1x256 b shapeCasts_S1x256_S1x256) broadcasts_S1x256_S1024x256 (ix2 p q) = _
  rw [shapeCast_self, shapeCast_self, shapeCast_self]
  refine (congrArg₂ (· + ·) (product_apply _ _ p q) (bias_rows_apply _ p q)).trans ?_
  exact congrArg (· + b (ix2 ⟨0, Nat.one_pos⟩ q)) (Finset.sum_congr rfl fun k _ => by rw [transposed_apply])

end Cert.KernelIdeal.Body

end
-- ==== Proof.Spec.lean ====
/-
  The layer both programs compute, over the extended reals:

      y[b, s, o] = Σ_i x[b, s, i] · w[o, i] + bias[o]        (b < 4, s < 2048, o < 11008, i < 4096)

  for a weight matrix `w` that both programs build the same way from the quantized codes. The kernel works on the
  flattened problem — rows r = b · 2048 + s, an [8192, 4096] activation, a [1, 11008] bias row — and reshapes the
  [8192, 11008] product back; `flat_eq` says that this is the same array: a row-major reshape moves no entry, so entry
  (b, s, o) of the reshaped product is entry (b · 2048 + s, o) of the product, whose row of activations is row (b, s).
  No law of arithmetic is used: the sum runs over the same 4096 products, in the same order, on both sides.
-/
import Idealize.ShloMosaic.PureOps.Ideal
import Idealize.ShloMosaic.Lib.ValueIdx
import Idealize.ShloMosaic.Lib.Pipeline.Value

noncomputable section

namespace Cert.QuantLinear

open Idealize.ShloMosaic Idealize.ShloMosaic.ValueIdx

abbrev SX3 : Shape := ⟨3, ![4, 2048, 4096]⟩
abbrev SX2 : Shape := ⟨2, ![8192, 4096]⟩
abbrev SW : Shape := ⟨2, ![11008, 4096]⟩
abbrev SB1 : Shape := ⟨1, ![11008]⟩
abbrev SB2 : Shape := ⟨2, ![1, 11008]⟩
abbrev SY2 : Shape := ⟨2, ![8192, 11008]⟩
abbrev SY3 : Shape := ⟨3, ![4, 2048, 11008]⟩

/-- The layer on the [4, 2048, ·] arrays: entry (b, s, o) is row (b, s) of `x` against row `o` of `w`, plus `bias[o]`. -/
def linear (x : SX3.Idx → EReal) (w : SW.Idx → EReal) (bias : SB1.Idx → EReal) : SY3.Idx → EReal :=
  fun j => (∑ k : Fin 4096, x (ix3 (j 0) (j 1) k) * w (ix2 (j 2) k)) + bias (ix1 (j 2))

/-- The layer on the flattened arrays: entry (r, o) is row `r` of `x` against row `o` of `w`, plus the bias row at `o`. -/
def linearFlat (x : SX2.Idx → EReal) (w : SW.Idx → EReal) (bias : SB2.Idx → EReal) : SY2.Idx → EReal :=
  fun j => (∑ k : Fin 4096, x (ix2 (j 0) k) * w (ix2 (j 1) k)) + bias (ix2 ⟨0, Nat.one_pos⟩ (j 1))

/-- Row (b, s) of the [4, 2048, ·] arrays is row b · 2048 + s of the flattened ones. -/
def flatRow (b : Fin 4) (s : Fin 2048) : Fin 8192 := ⟨b.val * 2048 + s.val, by have := b.isLt; have := s.isLt; omega⟩

/-- The flattened layer of the flattened activations and the bias as a row, reshaped to [4, 2048, 11008], is the layer. -/
theorem flat_eq (x : SX3.Idx → EReal) (w : SW.Idx → EReal) (bias : SB1.Idx → EReal)
    (hx : SX3.ShapeCasts SX2) (hb : SB1.ShapeCasts SB2) (hy : SY2.ShapeCasts SY3) :
    shapeCast SY3 (linearFlat (shapeCast SX2 x hx) w (shapeCast SB2 bias hb)) hy = linear x w bias := by
  funext j
  have h0 : (j 0).val < 4 := (j 0).isLt
  have h1 : (j 1).val < 2048 := (j 1).isLt
  have h2 : (j 2).val < 11008 := (j 2).isLt
  refine (shapeCast_apply _ hy j (ix2 (flatRow (j 0) (j 1)) (j 2))
    (by rw [Shape.rowMajor_val_two, Shape.rowMajor_val_three]
        show ((j 0).val * 2048 + (j 1).val) * 11008 + (j 2).val = ((j 0).val * 2048 + (j 1).val) * 11008 + (j 2).val
        rfl)).trans ?_
  unfold linearFlat linear
  have ex : ∀ k : Fin 4096, shapeCast SX2 x hx (ix2 (flatRow (j 0) (j 1)) k) = x (ix3 (j 0) (j 1) k) := fun k =>
    shapeCast_apply x hx _ (ix3 (j 0) (j 1) k)
      (by rw [Shape.rowMajor_val_two, Shape.rowMajor_val_three]
          show ((j 0).val * 2048 + (j 1).val) * 4096 + k.val = ((j 0).val * 2048 + (j 1).val) * 4096 + k.val
          rfl)
  have eb : shapeCast SB2 bias hb (ix2 ⟨0, Nat.one_pos⟩ (j 2)) = bias (ix1 (j 2)) :=
    shapeCast_apply bias hb _ (ix1 (j 2))
      (by rw [Shape.rowMajor_val_one, Shape.rowMajor_val_two]
          show (j 2).val = 0 * 11008 + (j 2).val
          omega)
  show (∑ k : Fin 4096, shapeCast SX2 x hx (ix2 (flatRow (j 0) (j 1)) k) * w (ix2 (j 2) k))
      + shapeCast SB2 bias hb (ix2 ⟨0, Nat.one_pos⟩ (j 2)) = _
  rw [eb]
  exact congrArg (· + bias (ix1 (j 2))) (Finset.sum_congr rfl fun k _ => by rw [ex k])

end Cert.QuantLinear

end
-- ==== Proof.KernelBlocks.lean ====
/-
  From one grid step to the whole product array. What a step writes back is its [1024, 256] block of ONE whole-array
  function — the flattened layer of the three arrays as the region finds them: the step's activations are the rows of
  the block's rows, its weight rows are the rows numbered by the block's columns, its bias piece sits over the block's
  columns. The blocks tile the array, so after the run the array is that function.
-/
import proofs.«134104_j76175539962496_1_alg».proof.Proof.KernelGrid
import proofs.«134104_j76175539962496_1_alg».proof.Proof.KernelBody
import proofs.«134104_j76175539962496_1_alg».proof.Proof.Spec

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)
open Cert.QuantLinear Cert.KernelIdeal.Grid

variable (m : (ℓ : Loc nD τ sig) → Buf (Elt Ideal) ℓ)

/-- The three arrays the region reads, as it finds them. -/
abbrev acts (c : Dev nD) : S8192x4096.Idx → EReal := V (F := Ideal) m c main_v8
abbrev wmat (c : Dev nD) : S11008x4096.Idx → EReal := V (F := Ideal) m c main_v6
abbrev brow (c : Dev nD) : S1x11008.Idx → EReal := V (F := Ideal) m c main_v9

/-- The product array as one function of them. -/
abbrev product (c : Dev nD) : S8192x11008.Idx → EReal := linearFlat (acts m c) (wmat m c) (brow m c)

/-- Entry (p, k) of the step's activations is the array's entry in the row of the output block's row p. -/
theorem acts_block (c : Dev nD) (t : Fin cfg0.N) (p : Fin 1024) (q : Fin 256) (k : Fin 4096) :
    iblk m c 0 t (ix2 p k) = acts m c (ix2 (((cfg0.win 3).blk t).view.emb (ix2 p q) 0) k) := by
  obtain ⟨e30, e31, e00, e01, -⟩ := index_facts t
  show acts m c (((cfg0.win 0).blk t).view.emb (ix2 p k)) = _
  refine congrArg (acts m c) (funext fun a => Fin.ext ?_)
  match a with
  | ⟨0, _⟩ => show win0_0.index t (0 : Fin 2) * 1024 + 1 * p.val = win0_3.index t (0 : Fin 2) * 1024 + 1 * p.val; rw [e00, e30]
  | ⟨1, _⟩ => show win0_0.index t (1 : Fin 2) * 4096 + 1 * k.val = k.val; rw [e01]; omega

/-- Entry (q, k) of the step's weight rows is the matrix's entry in the row numbered by the output block's column q. -/
theorem wmat_block (c : Dev nD) (t : Fin cfg0.N) (p : Fin 1024) (q : Fin 256) (k : Fin 4096) :
    iblk m c 1 t (ix2 q k) = wmat m c (ix2 (((cfg0.win 3).blk t).view.emb (ix2 p q) 1) k) := by
  obtain ⟨e30, e31, e00, e01, e10, e11, -⟩ := index_facts t
  show wmat m c (((cfg0.win 1).blk t).view.emb (ix2 q k)) = _
  refine congrArg (wmat m c) (funext fun a => Fin.ext ?_)
  match a with
  | ⟨0, _⟩ => show win0_1.index t (0 : Fin 2) * 256 + 1 * q.val = win0_3.index t (1 : Fin 2) * 256 + 1 * q.val; rw [e10, e31]
  | ⟨1, _⟩ => show win0_1.index t (1 : Fin 2) * 4096 + 1 * k.val = k.val; rw [e11]; omega

/-- Entry (0, q) of the step's bias piece is the bias row's entry over the output block's column q. -/
theorem brow_block (c : Dev nD) (t : Fin cfg0.N) (p : Fin 1024) (q : Fin 256) :
    iblk m c 2 t (ix2 ⟨0, Nat.one_pos⟩ q) = brow m c (ix2 ⟨0, Nat.one_pos⟩ (((cfg0.win 3).blk t).view.emb (ix2 p q) 1)) := by
  obtain ⟨e30, e31, e00, e01, e10, e11, e20, e21⟩ := index_facts t
  show brow m c (((cfg0.win 2).blk t).view.emb (ix2 ⟨0, Nat.one_pos⟩ q)) = _
  refine congrArg (brow m c) (funext fun a => Fin.ext ?_)
  match a with
  | ⟨0, _⟩ => show win0_2.index t (0 : Fin 2) * 1 + 1 * 0 = 0; rw [e20]
  | ⟨1, _⟩ => show win0_2.index t (1 : Fin 2) * 256 + 1 * q.val = win0_3.index t (1 : Fin 2) * 256 + 1 * q.val; rw [e21, e31]

/-- What point `t` writes back is block `t` of the product. -/
theorem flushed_eq (c : Dev nD) (t : Fin cfg0.N) :
    (dats m 0 c).flushed 3 t = ((cfg0.win 3).blk t).view.read (Elt Ideal) (product m c) := by
  show (cfg0.win 3).cut (grid0.coords t) ((dats m 0 c).after 3 t) = _
  rw [after0_3]
  unfold out0_3
  rw [View.canon_unit_zero origin]
  simp only [View.ld_unit_zero (S := S1024x4096) origin, View.ld_unit_zero (S := S256x4096) origin, View.ld_unit_zero (S := S1x256) origin]
  funext j
  obtain ⟨p, q, rfl⟩ : ∃ (p : Fin 1024) (q : Fin 256), j = ix2 p q := ⟨j 0, j 1, eq_ix2 j⟩
  show k0_pay1 (F := Ideal) (iblk m c 0 t) (iblk m c 1 t) (iblk m c 2 t) (ix2 p q)
      = linearFlat (acts m c) (wmat m c) (brow m c) (((cfg0.win 3).blk t).view.emb (ix2 p q))
  refine (Body.stored_apply (iblk m c 0 t) (iblk m c 1 t) (iblk m c 2 t) p q).trans ?_
  unfold linearFlat
  rw [brow_block m c t p q]
  exact congrArg (· + _) (Finset.sum_congr rfl fun k _ => by rw [acts_block m c t p q k, wmat_block m c t p q k])

/-- The product array after the run. -/
theorem final (c : Dev nD) : (dats m 0 c).arrAt 3 cfg0.N = product m c :=
  (dats m 0 c).arrAt_eq_of_cover 3 (product m c) (fun t _ => flushed_eq m c t) covered

end Cert.KernelIdeal.Blocks

end
-- ==== Proof.KernelHost.lean ====
/-
  What the region finds in the three arrays it reads, as the host lines before it leave them: the activations
  flattened to [8192, 4096] (a row-major reshape, then a change of float format, which over the extended reals changes
  nothing), the bias as a [1, 11008] row, and the weight matrix — every code divided by 7, scaled by its block's absmax,
  the [704512, 64] blocks laid out row-major as [11008, 4096] — again through a change of format that changes nothing.
-/
import proofs.«134104_j76175539962496_1_alg».proof.Proof.Gen.KernelIdeal.Frame
import Idealize.ShloMosaic.Lib.StableHlo.Run
import Idealize.ShloMosaic.PureOps.Ideal

noncomputable section

namespace Cert.KernelIdeal.Host

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ)

/-- The weight matrix the host lines build from the codes `q` and the per-block scales `s`: (q / 7) · s, reshaped. -/
def weights (q : IVec S704512x64 32) (s : FVec Ideal S704512x1 .f32) : FVec Ideal S11008x4096 .f32 :=
  shapeCast S11008x4096 (mulf (Host.divf (sitofp .f32 q) (broadcastInDim S704512x64 ![] bcast_S_S704512x64 (constant (F := Ideal) S_ .f32 0x40E00000#32)))
    (broadcastInDim S704512x64 ![0, 1] bcast_S704512x1_S704512x64_0_1 s)) shapeCasts_S704512x64_S11008x4096

/-- The region's activations: the argument, flattened. -/
theorem acts_eq (c : Dev nD) :
    (V (F := Ideal) m c main_v8 : S8192x4096.Idx → EReal)
      = shapeCast S8192x4096 (m ((c : Thread nD τ).loc main_arg0)) shapeCasts_S4x2048x4096_S8192x4096 := by
  show StableHlo.after hostOps0 (fun b => m (c, b)) (Proc.devRef .tc main_v8) = _
  after_results
  rfl

/-- The region's bias row: the argument, as one row. -/
theorem bias_eq (c : Dev nD) :
    (V (F := Ideal) m c main_v9 : S1x11008.Idx → EReal)
      = shapeCast S1x11008 (m ((c : Thread nD τ).loc main_arg3)) shapeCasts_S11008_S1x11008 := by
  show StableHlo.after hostOps0 (fun b => m (c, b)) (Proc.devRef .tc main_v9) = _
  after_results
  rfl

/-- The region's weight matrix: the one built from the codes and the scales. -/
theorem weights_eq (c : Dev nD) :
    (V (F := Ideal) m c main_v6 : S11008x4096.Idx → EReal)
      = weights (m ((c : Thread nD τ).loc main_arg1)) (m ((c : Thread nD τ).loc main_arg2)) := by
  show StableHlo.after hostOps0 (fun b => m (c, b)) (Proc.devRef .tc main_v6) = _
  after_results
  rfl

end Cert.KernelIdeal.Host

end
-- ==== Proof.KernelRun.lean ====
/-
  The kernel program's run, read as a value. After the region the one remaining host line reshapes the [8192, 11008]
  product to [4, 2048, 11008]. The product is the flattened layer of the flattened activations, the weight matrix the
  host lines built and the bias as a row; reshaped, that is the layer of the arguments themselves (the specification's
  `flat_eq`). The arguments end as they were launched.
-/
import proofs.«134104_j76175539962496_1_alg».proof.Proof.KernelBlocks
import proofs.«134104_j76175539962496_1_alg».proof.Proof.KernelHost

set_option maxRecDepth 16384

noncomputable section

namespace Cert.KernelIdeal.Run

open Cert.KernelIdeal Cert.KernelIdeal.Gen Idealize.ShloMosaic Idealize.ShloMosaic.TcCoe Idealize.SL.Sem Idealize.ShloMosaic.StableHlo
open Cert.QuantLinear

variable (m : (ℓ : Loc nD τ sig) → Buf (Elt Ideal) ℓ) (ρ : Dev nD → PrngReg)

/-- The line after the region leaves the product array, reshaped, in the result buffer. -/
theorem tail_eq (c : Dev nD) :
    (Pipeline.afterTail₀ cfgs (dats m) 0 (V0 m) [hostOps1] c main_v11 : S4x2048x11008.Idx → EReal)
      = shapeCast S4x2048x11008 ((dats m 0 c).arrAt 3 cfg0.N) shapeCasts_S8192x11008_S4x2048x11008 := by
  unfold Pipeline.afterTail₀
  show StableHlo.after hostOps1 _ (Proc.devRef .tc main_v11) = _
  after_results
  -- the product's buffer holds the pipeline's final array
  have hw := Pipeline.withArrays_arr spec0 launch0.win.arr_inj c (V0 m c) (fun w => (dats m 0 c).arrAt w cfg0.N) 3
  funext i
  exact congrFun (congrArg (fun A : S8192x11008.Idx → EReal => shapeCast S4x2048x11008 A shapeCasts_S8192x11008_S4x2048x11008) hw) i

/-- The result buffer after the run is the layer of the arguments, with the weight matrix the host lines build. -/
theorem result_eq (c : Dev nD) :
    (Pipeline.afterTail₀ cfgs (dats m) 0 (V0 m) [hostOps1] c main_v11 : S4x2048x11008.Idx → EReal)
      = linear (m ((c.tc : Thread nD τ).loc main_arg0)) (Host.weights (m ((c.tc : Thread nD τ).loc main_arg1)) (m ((c.tc : Thread nD τ).loc main_arg2))) (m ((c.tc : Thread nD τ).loc main_arg3)) := by
  rw [tail_eq, Blocks.final]
  show shapeCast S4x2048x11008 (linearFlat (V (F := Ideal) m c main_v8) (V (F := Ideal) m c main_v6) (V (F := Ideal) m c main_v9)) shapeCasts_S8192x11008_S4x2048x11008 = _
  rw [Host.acts_eq, Host.weights_eq, Host.bias_eq]
  exact flat_eq _ _ _ _ _ _

/-- Every weakly fair execution of the kernel program terminates with the result buffer at the layer of the arguments
    and the arguments unchanged. -/
theorem run : θ_run defs (onTc (τ := τ) (main (F := Ideal))) ⟨m, fun _ => 0, ρ⟩ fun r => ∀ c : Dev nD,
      r.2.mem ((c.tc : Thread nD τ).loc main_v11) = linear (m ((c.tc : Thread nD τ).loc main_arg0)) (Host.weights (m ((c.tc : Thread nD τ).loc main_arg1)) (m ((c.tc : Thread nD τ).loc main_arg2))) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨((h c).2 main_v11 (Pipeline.mem_restRefs_of main_v11 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Run

end
-- ==== Proof.RefValue.lean ====
/-
  The reference's result, entry by entry. Its last three lines are a contraction of the activations' last axis against
  the weight matrix's last axis, the bias repeated over the first two axes, and their sum; read at (b, s, o) that is

      Σ_i x[b, s, i] · w[o, i] + bias[o],

  the layer of the specification, with `w` the weight matrix the reference's first lines build.
-/
import proofs.«134104_j76175539962496_1_alg».proof.Proof.Gen.ReferenceIdeal.Read
import proofs.«134104_j76175539962496_1_alg».proof.Proof.Spec

noncomputable section

namespace Cert.ReferenceIdeal.RefValue

open Cert.ReferenceIdeal Cert.ReferenceIdeal.Gen Cert.ReferenceIdeal.Read Idealize.ShloMosaic Idealize.ShloMosaic.ValueIdx
open Cert.QuantLinear

/-- The reference's result is the layer of the activations, the weight matrix it builds, and the bias. -/
theorem result_eq (x : FVec Ideal S4x2048x4096 .f32) (q : IVec S704512x64 32) (a : FVec Ideal S704512x1 .f32) (b : FVec Ideal S11008 .f32) :
    val_main_v9 (F := Ideal) x q a b = linear x (val_main_v5 (F := Ideal) q a) b := by
  funext i
  have el : ∀ k : Fin 4096, lidx_main_v6 i k = ix3 (i 0) (i 1) k := fun k => funext fun d => Fin.ext (by
    match d with
    | ⟨0, _⟩ => rfl
    | ⟨1, _⟩ => rfl
    | ⟨2, _⟩ => rfl)
  have er : ∀ k : Fin 4096, ridx_main_v6 i k = ix2 (i 2) k := fun k => funext fun d => Fin.ext (by
    match d with
    | ⟨0, _⟩ => rfl
    | ⟨1, _⟩ => rfl)
  have eb : idx_main_v7 (idx_main_v8 i) = ix1 (i 2) := funext fun d => Fin.ext (by
    match d with
    | ⟨0, _⟩ => rfl)
  rw [val_main_v9_apply, val_main_v6_apply, val_main_v8_apply, val_main_v7_apply]
  simp only [el, er, eb]
  rfl

end Cert.ReferenceIdeal.RefValue

end
-- ==== Proof.lean ====
/-
  A quantized linear layer: the weights come as 4-bit-style integer codes in blocks of 64 with one scale per block; both
  programs rebuild the weight matrix the same way — w = (code / 7) · scale, the [704512, 64] blocks laid out row-major as
  [11008, 4096] — and compute

      y[b, s, o] = Σ_i x[b, s, i] · w[o, i] + bias[o].

  The reference does it with one contraction over the [4, 2048, 4096] activations. The kernel flattens the activations to
  [8192, 4096], computes the [8192, 11008] product on an 8 × 43 grid of [1024, 256] blocks — each block one pass of the
  matrix unit over the whole contracted axis, plus the bias piece — and reshapes back. Over the extended reals a change
  of float format is the identity and the matrix unit's product is the plain sum, so both results are the same 4096-term
  sum at every entry, term for term: no law of arithmetic is needed, and the finiteness of the inputs is never used.

  The modules: Spec (the layer, and that the flattened computation reshaped is the layer), KernelBody (one step's stored
  block, entry by entry), KernelGrid and KernelBlocks (the blocks tile the product array), KernelHost (what the host
  lines before the region leave), KernelRun (the kernel program's result), RefValue (the reference's result).
-/
import proofs.«134104_j76175539962496_1_alg».proof.Defs
import proofs.«134104_j76175539962496_1_alg».proof.Proof.Gen.Kernel
import proofs.«134104_j76175539962496_1_alg».proof.Proof.Gen.Kernel.Skeleton
import proofs.«134104_j76175539962496_1_alg».proof.Proof.Gen.Kernel.Launch
import proofs.«134104_j76175539962496_1_alg».proof.Proof.Gen.Kernel.Points
import proofs.«134104_j76175539962496_1_alg».proof.Proof.Gen.Kernel.Frame
import proofs.«134104_j76175539962496_1_alg».proof.Proof.Gen.KernelIdeal
import proofs.«134104_j76175539962496_1_alg».proof.Proof.Gen.KernelIdeal.Skeleton
import proofs.«134104_j76175539962496_1_alg».proof.Proof.Gen.KernelIdeal.Launch
import proofs.«134104_j76175539962496_1_alg».proof.Proof.Gen.KernelIdeal.Points
import proofs.«134104_j76175539962496_1_alg».proof.Proof.Gen.KernelIdeal.Frame
import proofs.«134104_j76175539962496_1_alg».proof.Proof.Gen.ReferenceIdeal
import proofs.«134104_j76175539962496_1_alg».proof.Proof.Gen.Pre_finite_inputs
import proofs.«134104_j76175539962496_1_alg».proof.Proof.Gen.ReferenceIdeal.Run
import proofs.«134104_j76175539962496_1_alg».proof.Proof.Gen.ReferenceIdeal.Read
import proofs.«134104_j76175539962496_1_alg».proof.Proof.KernelRun
import proofs.«134104_j76175539962496_1_alg».proof.Proof.RefValue
import Idealize.ShloMosaic.Adequacy
import Idealize.ShloMosaic.Init

noncomputable section

namespace Cert.Proof

open Idealize.ShloMosaic Idealize.SL.Sem

/-- The two programs build one weight matrix: the same operations on the codes and the scales, in the same order. -/
theorem weights_eq (q : IVec Cert.KernelIdeal.S704512x64 32) (s : FVec Ideal Cert.KernelIdeal.S704512x1 .f32) :
    Cert.KernelIdeal.Host.weights q s = Cert.ReferenceIdeal.Read.val_main_v5 (F := Ideal) q s := rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments both programs end with the layer of those arguments in their result. -/
theorem algebraic : Cert.algebraic_KernelIdeal_ReferenceIdeal := by
  intro m ρ m' ρ' _ hagree
  refine ⟨fun c => Cert.QuantLinear.linear (m ((c.tc : Thread Cert.KernelIdeal.nD Cert.KernelIdeal.τ).loc Cert.KernelIdeal.main_arg0))
      (Cert.KernelIdeal.Host.weights (m ((c.tc : Thread Cert.KernelIdeal.nD Cert.KernelIdeal.τ).loc Cert.KernelIdeal.main_arg1)) (m ((c.tc : Thread Cert.KernelIdeal.nD Cert.KernelIdeal.τ).loc Cert.KernelIdeal.main_arg2)))
      (m ((c.tc : Thread Cert.KernelIdeal.nD Cert.KernelIdeal.τ).loc Cert.KernelIdeal.main_arg3)), Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2,
    Cert.ReferenceIdeal.Read.val_main_v9_eq, Cert.ReferenceIdeal.RefValue.result_eq, ← weights_eq]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
